-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x128 : Shape := ⟨2, ![100000, 128]⟩
abbrev S200000x128 : Shape := ⟨2, ![200000, 128]⟩
abbrev S500000 : Shape := ⟨1, ![500000]⟩
abbrev S384x128 : Shape := ⟨2, ![384, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_

variable [Facts]

def fn_part1 {F : FTy → Type} [FloatOps F] (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  main_v18

def fn {F : FTy → Type} [FloatOps F] (main_arg0 : FVec F S500000x128 .f32) (main_arg1 : FVec F S100000x128 .f32) (main_arg2 : FVec F S200000x128 .f32) (main_arg3 : IVec S500000 32) (main_arg4 : IVec S500000 32) (main_arg5 : FVec F S384x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_v13 main_v16
-- ==== Kernel.lean ====
abbrev S500000x128 : Shape := ⟨2, ![500000, 128]⟩
abbrev S100000x128 : Shape := ⟨2, ![100000, 128]⟩
abbrev S200000x128 : Shape := ⟨2, ![200000, 128]⟩
abbrev S500000 : Shape := ⟨1, ![500000]⟩
abbrev S384x128 : Shape := ⟨2, ![384, 128]⟩
abbrev S_ : Shape := ⟨0, ![]⟩
abbrev S500000x1 : Shape := ⟨2, ![500000, 1]⟩
abbrev S2048x128 : Shape := ⟨2, ![2048, 128]⟩
abbrev S128x128 : Shape := ⟨2, ![128, 128]⟩

abbrev nBuf : Space → Nat
  | .hbm => 25
  | .vmem => 9
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S200000x128, .f32⟩
  | .hbm, ⟨3, _⟩ => ⟨S500000, .i32⟩
  | .hbm, ⟨4, _⟩ => ⟨S500000, .i32⟩
  | .hbm, ⟨5, _⟩ => ⟨S384x128, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S500000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S500000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S384x128, .f32⟩
  | .local _ .vmem, ⟨7, _⟩ => ⟨S2048x128, .f32⟩
  | .local _ .vmem, ⟨8, _⟩ => ⟨S2048x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  shapeCasts_S2048x128_S2048x128 : S2048x128.ShapeCasts S2048x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  gather_S200000x128_S500000x1_S500000x128_1_0_n_n_0_1_1128_wf : GatherDims.WF S200000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x128.size a < S500000x128.size a
  hwx0_0 : ∀ i : grid0.Coords, EltTy.bits .f32 = 32 ∨ (Rect.unit (s := S500000x128) (fun a => cc0_transform_0 i a * S2048x128.size a) (fun a => (Pipeline.Clip.of (cc0_transform_0 i a) (S2048x128.size a) (S500000x128.size a)).extent (S2048x128.size a)) fun a => Pipeline.Clip.inb (Pipeline.Clip.ok_of (hstart0_0 i a))).WholeWords (EltTy.packing .f32)
  hwxs0_0 : ∀ i : grid0.Coords, EltTy.bits .f32 = 32 ∨ (Rect.unit (s := S2048x128) (fun _ => 0) (fun a => (Pipeline.Clip.of (cc0_transform_0 i a) (S2048x128.size a) (S500000x128.size a)).extent (S2048x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S500000x128.size a
  hwx0_1 : ∀ i : grid0.Coords, EltTy.bits .f32 = 32 ∨ (Rect.unit (s := S500000x128) (fun a => cc0_transform_1 i a * S2048x128.size a) (fun a => (Pipeline.Clip.of (cc0_transform_1 i a) (S2048x128.size a) (S500000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S500000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x128.size a < S500000x128.size a
  hwx0_2 : ∀ i : grid0.Coords, EltTy.bits .f32 = 32 ∨ (Rect.unit (s := S500000x128) (fun a => cc0_transform_2 i a * S2048x128.size a) (fun a => (Pipeline.Clip.of (cc0_transform_2 i a) (S2048x128.size a) (S500000x128.size a)).extent (S2048x128.size a)) fun a => Pipeline.Clip.inb (Pipeline.Clip.ok_of (hstart0_2 i a))).WholeWords (EltTy.packing .f32)
  hwxs0_2 : ∀ i : grid0.Coords, EltTy.bits .f32 = 32 ∨ (Rect.unit (s := S2048x128) (fun _ => 0) (fun a => (Pipeline.Clip.of (cc0_transform_2 i a) (S2048x128.size a) (S500000x128.size a)).extent (S2048x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x128.size a < S500000x128.size a
  hwx0_4 : ∀ i : grid0.Coords, EltTy.bits .f32 = 32 ∨ (Rect.unit (s := S500000x128) (fun a => cc0_transform_4 i a * S2048x128.size a) (fun a => (Pipeline.Clip.of (cc0_transform_4 i a) (S2048x128.size a) (S500000x128.size a)).extent (S2048x128.size a)) fun a => Pipeline.Clip.inb (Pipeline.Clip.ok_of (hstart0_4 i a))).WholeWords (EltTy.packing .f32)
  hwxs0_4 : ∀ i : grid0.Coords, EltTy.bits .f32 = 32 ∨ (Rect.unit (s := S2048x128) (fun _ => 0) (fun a => (Pipeline.Clip.of (cc0_transform_4 i a) (S2048x128.size a) (S500000x128.size a)).extent (S2048x128.size a)) fun a => (Nat.zero_add _).trans_le (Pipeline.Clip.extent_le (Pipeline.Clip.ok_of (hstart0_4 i a)))).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpecClip (Memref.whole main_arg0) S2048x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v6) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S2048x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v14) S2048x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x128 : Shape := ⟨2, ![500000, 128]⟩
abbrev S100000x128 : Shape := ⟨2, ![100000, 128]⟩
abbrev S200000x128 : Shape := ⟨2, ![200000, 128]⟩
abbrev S500000 : Shape := ⟨1, ![500000]⟩
abbrev S384x128 : Shape := ⟨2, ![384, 128]⟩
abbrev S_ : Shape := ⟨0, ![]⟩
abbrev S500000x1 : Shape := ⟨2, ![500000, 1]⟩
abbrev S500000x384 : Shape := ⟨2, ![500000, 384]⟩

abbrev nBuf : Space → Nat
  | .hbm => 29
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S200000x128, .f32⟩
  | .hbm, ⟨3, _⟩ => ⟨S500000, .i32⟩
  | .hbm, ⟨4, _⟩ => ⟨S500000, .i32⟩
  | .hbm, ⟨5, _⟩ => ⟨S384x128, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S500000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S500000x384, .f32⟩
  | .hbm, ⟨25, _⟩ => ⟨S500000x128, .f32⟩
  | .hbm, ⟨26, _⟩ => ⟨S_, .f32⟩
  | .hbm, ⟨27, _⟩ => ⟨S500000x128, .f32⟩
  | .hbm, ⟨28, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S_S500000x128 : S_.BroadcastsInDim S500000x128 (![] : Fin 0 → Fin S500000x128.rank)
  gather_S100000x128_S500000x1_S500000x128_1_0_n_n_0_1_1128_wf : GatherDims.WF S100000x128 S500000x1 S500000x128 [1] [0] [] [0] [] 1 ![1, 128]
  gather_S200000x128_S500000x1_S500000x128_1_0_n_n_0_1_1128_wf : GatherDims.WF S200000x128 S500000x1 S500000x128 [1] [0] [] [0] [] 1 ![1, 128]
  dot_S500000x384_S384x128_S500000x128_1_0_0_1_n_n_wf : DotDims.WF S500000x384 S384x128 S500000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf

class Facts : Prop extends Facts₀ where

variable [Facts]
-- ==== Proof.KernelBody.lean ====
/-
  What one grid point of the streaming dense layer does to its five staging buffers.

  At a point the body reads three blocks of 2048 rows by 128 features (the review rows, their gathered user rows,
  their gathered item rows), reads the weight buffer [384, 128] as its three thirds of 128 rows, multiplies each
  block by its third, adds the three products left to right, clamps at zero and stores the result over the whole
  output buffer. The four input buffers are only read, so they end as they began; the output buffer ends at the one
  whole store's payload, whatever it held before. Rows past the array's end in the last block are computed like
  any others: the payload is a function of the buffers' whole contents.
-/
import proofs.«423500_j34488587387574_3_alg».proof.Proof.Gen.Kernel.Launch
import proofs.«423500_j34488587387574_3_alg».proof.Proof.Gen.Kernel.Skeleton
import proofs.«423500_j34488587387574_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A row block, whole. -/
abbrev rRows : Rect S2048x128 := Rect.unit (s := S2048x128) ![0, 0] S2048x128.size inb_S2048x128_S2048x128_0_0
/-- The weights' three thirds: rows 0‥127, 128‥255, 256‥383. -/
abbrev rW0 : Rect S384x128 := Rect.unit (s := S384x128) ![0, 0] S128x128.size inb_S384x128_S128x128_0_0
abbrev rW1 : Rect S384x128 := Rect.unit (s := S384x128) ![128, 0] S128x128.size inb_S384x128_S128x128_128_0
abbrev rW2 : Rect S384x128 := Rect.unit (s := S384x128) ![256, 0] S128x128.size inb_S384x128_S128x128_256_0

/-- What the output buffer holds after the body, from what the four input buffers hold: the one whole store's
    payload over the loaded blocks. -/
def outBlock (x0 x1 x2 : Vec F S2048x128 .f32) (x3 : Vec F S384x128 .f32) : Vec F S2048x128 .f32 :=
  View.canon [⟨rRows, k0_pay1 (View.ld x0 rRows) (View.ld x1 rRows) (View.ld x2 rRows) (View.ld x3 rW0) (View.ld x3 rW1) (View.ld x3 rW2)⟩]

/-- The one store is of the whole buffer, so it covers it. -/
theorem cover_out (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The body on whole staging memrefs, the four inputs' at read contents `x0 … x3` and the output's at anything,
    runs to the continuation holding the inputs' as they were and the output's at `outBlock` of them. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S384x128 .f32) (harg4 : arg4.IsWhole)
    (arg5 : Memref sig .tc .vmem S2048x128 .f32) (harg5 : arg5.IsWhole)
    (x0 x1 x2 : Vec F S2048x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__stream_mm_kernel i arg1 harg1 arg2 harg2 arg3 harg3 arg4 harg4 arg5 harg5) K := by
  simp only [cc0__stream_mm_kernel_eq_skeleton]; unfold cc0__stream_mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.KernelRun.lean ====
/-
  The word-level kernel's frame: the run terminates without a fault and leaves the six argument arrays as they
  were.

  Nothing is claimed here of what the result array holds, so the proof data say nothing of the result's staging
  buffer: the body is handed it at any contents and hands it back at any contents. Of the three row windows they
  say what a frame needs: each buffer holds its fetched block on the rows the fetch moved (the last block overhangs
  the arrays by 1760 rows, which hold words nothing names), and the body, which only reads them, leaves them so;
  the weights' buffer holds the weights at every point.
-/
import proofs.«423500_j34488587387574_3_alg».proof.Proof.KernelBody
import proofs.«423500_j34488587387574_3_alg».proof.Proof.Gen.Kernel.Frame

set_option maxRecDepth 16384

noncomputable section

namespace Cert.Kernel.Dense

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for staging contents nothing reads. -/
abbrev zpad : S2048x128.Idx → Elt F .f32 := fun _ => Scalar.ofBits (F := F) .f32 0#32

/-- The result's window is forgotten: the frame does not read what the body leaves there. -/
abbrev fgt : Fin cfg0.W → Bool := fun | 0 => false | 1 => false | 2 => false | 3 => false | 4 => true | ⟨_ + 5, h⟩ => absurd h (Nat.not_lt.2 (Nat.le_add_left _ _))

/-! ## The proof data -/

/-- After the body at point `t`: each row window's buffer at its block (on the rows inside the array), the weights'
    at the weights; the result's buffer is not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) zpad (iblk m c 0 t)
    | ⟨1, _⟩ => win0_1.fill (grid0.coords t) zpad (iblk m c 1 t)
    | ⟨2, _⟩ => win0_2.fill (grid0.coords t) zpad (iblk m c 2 t)
    | ⟨3, _⟩ => iblk m c 3 t
    | ⟨4, _⟩ => zpad
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) zpad (iblk m c 0 t) := by dsimp only [dats]
theorem after_1 (c : Dev nD) (t : Fin cfg0.N) : (dats m 0 c).after 1 t = win0_1.fill (grid0.coords t) zpad (iblk m c 1 t) := by dsimp only [dats]
theorem after_2 (c : Dev nD) (t : Fin cfg0.N) : (dats m 0 c).after 2 t = win0_2.fill (grid0.coords t) zpad (iblk m c 2 t) := by dsimp only [dats]
theorem after_3 (c : Dev nD) (t : Fin cfg0.N) : (dats m 0 c).after 3 t = iblk m c 3 t := by dsimp only [dats]

/-! ## What the body finds -/

/-- A row window's buffer was just fetched: its block on the rows the fetch moved, anything past them. -/
theorem before_0 (c : Dev nD) (t : Fin cfg0.N) (d) : (dats m 0 c).before 0 t d = win0_0.fill (grid0.coords t) d (iblk m c 0 t) :=
  ((dats m 0 c).before_fetched 0 t (fetch0_0 t) d).trans (by unfold Dat.fetched Dat.blockOf iblk; rw [A_eq])
theorem before_1 (c : Dev nD) (t : Fin cfg0.N) (d) : (dats m 0 c).before 1 t d = win0_1.fill (grid0.coords t) d (iblk m c 1 t) :=
  ((dats m 0 c).before_fetched 1 t (fetch0_1 t) d).trans (by unfold Dat.fetched Dat.blockOf iblk; rw [A_eq])
theorem before_2 (c : Dev nD) (t : Fin cfg0.N) (d) : (dats m 0 c).before 2 t d = win0_2.fill (grid0.coords t) d (iblk m c 2 t) :=
  ((dats m 0 c).before_fetched 2 t (fetch0_2 t) d).trans (by unfold Dat.fetched Dat.blockOf iblk; rw [A_eq])
/-- The weights' buffer holds the weights at every point. -/
theorem before_3 (c : Dev nD) (t : Fin cfg0.N) (d) : (dats m 0 c).before 3 t d = iblk m c 3 t :=
  before0_3_of m (dats m 0 c) (A_eq m c 3) (after_3 m c) t d

/-! ## The body obligation -/

/-- What the body is called with at point `t` (the result's buffer at any contents), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the row windows' buffers stated on the rows their fetches moved, the weights' exactly, the
    result's at any contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ (∃ X, owns (c : Thread nD τ) (st0_4 t) fullShare X))

/-- The body at any point: the row buffers hold their fetched blocks, the weights' buffer the weights, so the
    body's triple applies; the inputs' buffers come back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  iapply (sound_kernel (F := F) c Set.univ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show (cfg0.win 0).cut (cfg0.grid.coords t) (win0_0.fill (grid0.coords t) zpad (iblk m c 0 t)) = iblk m c 0 t from win0_0.cut_fill _ _ _]
    iexact H0
  isplitl [H1]
  · iexists d1
    rw [show (cfg0.win 1).cut (cfg0.grid.coords t) (win0_1.fill (grid0.coords t) zpad (iblk m c 1 t)) = iblk m c 1 t from win0_1.cut_fill _ _ _]
    iexact H1
  isplitl [H2]
  · iexists d2
    rw [show (cfg0.win 2).cut (cfg0.grid.coords t) (win0_2.fill (grid0.coords t) zpad (iblk m c 2 t)) = iblk m c 2 t from win0_2.cut_fill _ _ _]
    iexact H2
  isplitl [H3]; · iexact H3
  iexists _; iexact H4

/-- The library's body obligation with the result's window forgotten, at every point. -/
theorem body_obligation (c : Dev nD) : BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of @main terminates; every input array of the pipeline ends at its entry contents
    and every other unscoped buffer as the region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c w => (dats m 0 c).share_full (fun _ => rfl) w)
    (howed := fun _ _ => rfl) (V := V m) (hmain := hmain m Variants.none) (hA := fun c w => A_eq m c w) (hΦ := fun _ _ => rfl)

/-- The frame: the six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost cfg0 (fun c => (dats m 0 c).toRForget fgt) (V m) r) c => ⟨(h.arr_in c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (h.arr_in c 3 rfl).trans ((A_eq m c 3).trans (V_main_arg5 m c))⟩)
    (run_main m ρ)

end Cert.Kernel.Dense

end
-- ==== Proof.IdealBody.lean ====
/-
  What one grid point of the streaming dense layer does to its five staging buffers.

  At a point the body reads three blocks of 2048 rows by 128 features (the review rows, their gathered user rows,
  their gathered item rows), reads the weight buffer [384, 128] as its three thirds of 128 rows, multiplies each
  block by its third, adds the three products left to right, clamps at zero and stores the result over the whole
  output buffer. The four input buffers are only read, so they end as they began; the output buffer ends at the one
  whole store's payload, whatever it held before. Rows past the array's end in the last block are computed like
  any others: the payload is a function of the buffers' whole contents.
-/
import proofs.«423500_j34488587387574_3_alg».proof.Proof.Gen.KernelIdeal.Launch
import proofs.«423500_j34488587387574_3_alg».proof.Proof.Gen.KernelIdeal.Skeleton
import proofs.«423500_j34488587387574_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A row block, whole. -/
abbrev rRows : Rect S2048x128 := Rect.unit (s := S2048x128) ![0, 0] S2048x128.size inb_S2048x128_S2048x128_0_0
/-- The weights' three thirds: rows 0‥127, 128‥255, 256‥383. -/
abbrev rW0 : Rect S384x128 := Rect.unit (s := S384x128) ![0, 0] S128x128.size inb_S384x128_S128x128_0_0
abbrev rW1 : Rect S384x128 := Rect.unit (s := S384x128) ![128, 0] S128x128.size inb_S384x128_S128x128_128_0
abbrev rW2 : Rect S384x128 := Rect.unit (s := S384x128) ![256, 0] S128x128.size inb_S384x128_S128x128_256_0

/-- What the output buffer holds after the body, from what the four input buffers hold: the one whole store's
    payload over the loaded blocks. -/
def outBlock (x0 x1 x2 : Vec F S2048x128 .f32) (x3 : Vec F S384x128 .f32) : Vec F S2048x128 .f32 :=
  View.canon [⟨rRows, k0_pay1 (View.ld x0 rRows) (View.ld x1 rRows) (View.ld x2 rRows) (View.ld x3 rW0) (View.ld x3 rW1) (View.ld x3 rW2)⟩]

/-- The one store is of the whole buffer, so it covers it. -/
theorem cover_out (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The body on whole staging memrefs, the four inputs' at read contents `x0 … x3` and the output's at anything,
    runs to the continuation holding the inputs' as they were and the output's at `outBlock` of them. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S384x128 .f32) (harg4 : arg4.IsWhole)
    (arg5 : Memref sig .tc .vmem S2048x128 .f32) (harg5 : arg5.IsWhole)
    (x0 x1 x2 : Vec F S2048x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__stream_mm_kernel i arg1 harg1 arg2 harg2 arg3 harg3 arg4 harg4 arg5 harg5) K := by
  simp only [cc0__stream_mm_kernel_eq_skeleton]; unfold cc0__stream_mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.AggSpec.lean ====
/-
  The dense aggregation layer as ONE function of whole arrays, index by index, on the extended reals.

  A review row `r` carries three embeddings of width 128 side by side — the review's own, its user's and its
  item's — and the layer multiplies the concatenated row of width 384 by a weight matrix [384, 128] and
  clamps at zero. The concatenation never has to exist: row `q * 128 + k` of the weights (`wrow q k`) meets
  coordinate `k` of the `q`-th embedding, so the product over 384 is the sum of three products over 128
  (`sum_thirds`), a regrouping of a finite sum that holds in any commutative additive monoid, with no
  finiteness of the summands needed.
-/
import Idealize.ShloMosaic.Lib.ValueIdx
import Idealize.ShloMosaic.PureOps.Ideal

noncomputable section

open scoped BigOperators

namespace Cert.Agg

open Idealize.ShloMosaic Idealize.ShloMosaic.ValueIdx

/-- The shape of an array of review rows. -/
abbrev SRows : Shape := ⟨2, ![500000, 128]⟩
/-- The shape of the concatenated rows. -/
abbrev SCat : Shape := ⟨2, ![500000, 384]⟩
/-- The shape of the weights. -/
abbrev SWts : Shape := ⟨2, ![384, 128]⟩

/-- Row `k` of the `q`-th third of the weights. -/
def wrow (q : Fin 3) (k : Fin 128) : Fin 384 := ⟨q.val * 128 + k.val, by omega⟩

@[simp] theorem wrow_val (q : Fin 3) (k : Fin 128) : (wrow q k).val = q.val * 128 + k.val := rfl

/-- One third's contribution to entry `(r, j)`: the embedding's row `r` against the third's column `j`. -/
def third (q : Fin 3) (e : SRows.Idx → EReal) (w : SWts.Idx → EReal) (r : Fin 500000) (j : Fin 128) : EReal :=
  ∑ k : Fin 128, e (ix2 r k) * w (ix2 (wrow q k) j)

/-- Entry `(r, j)` of the layer: the three thirds summed left to right, clamped at zero. -/
def denseAt (x u it : SRows.Idx → EReal) (w : SWts.Idx → EReal) (r : Fin 500000) (j : Fin 128) : EReal :=
  max ((third 0 x w r j + third 1 u w r j) + third 2 it w r j) 0

/-- The layer as one function of the whole arrays. -/
def dense (x u it : SRows.Idx → EReal) (w : SWts.Idx → EReal) : SRows.Idx → EReal :=
  fun i => denseAt x u it w (i 0) (i 1)

theorem dense_apply (x u it : SRows.Idx → EReal) (w : SWts.Idx → EReal) (r : Fin 500000) (j : Fin 128) :
    dense x u it w (ix2 r j) = denseAt x u it w r j := rfl

/-- A sum over 384 consecutive indices is the sum of its three stretches of 128, in any commutative additive
    monoid. -/
theorem sum_thirds {M : Type} [AddCommMonoid M] (f : Fin 384 → M) :
    ∑ k : Fin 384, f k = (∑ k : Fin 128, f (wrow 0 k) + ∑ k : Fin 128, f (wrow 1 k)) + ∑ k : Fin 128, f (wrow 2 k) := by
  have h := Fin.sum_univ_add (M := M) (a := 128 + 128) (b := 128) f
  rw [Fin.sum_univ_add (M := M) (a := 128) (b := 128)] at h
  refine h.trans ?_
  refine congrArg₂ (· + ·) (congrArg₂ (· + ·) ?_ ?_) ?_
  · exact Finset.sum_congr rfl fun k _ => congrArg f (Fin.ext (by simp [wrow]; try omega))
  · exact Finset.sum_congr rfl fun k _ => congrArg f (Fin.ext (by simp [wrow]; try omega))
  · exact Finset.sum_congr rfl fun k _ => congrArg f (Fin.ext (by simp [wrow]; try omega))

end Cert.Agg

end
-- ==== Proof.IdealPayload.lean ====
/-
  One entry of the block the body stores, on the extended reals.

  At the ideal values a change of float format is the identity and a matrix product into a zero accumulator is
  the plain sum of products over the contracted axis, so entry `(r, j)` of the stored block is the sum, over the
  three embeddings, of row `r` of the embedding's block against column `j` of its third of the weights — the three
  sums added left to right — clamped at zero. Entry `(r, j)` reads row `r` of each row block and nothing of any
  other row.
-/
import proofs.«423500_j34488587387574_3_alg».proof.Proof.IdealBody
import proofs.«423500_j34488587387574_3_alg».proof.Proof.AggSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx

/-! ## The weights' thirds at an index -/

/-- Row `k` of the first third of the weights is row `k` of the weights. -/
theorem ld_third0 (X3 : Vec Ideal S384x128 .f32) (k j : Fin 128) :
    (View.ld X3 rW0) (ix2 k j) = X3 (ix2 (Cert.Agg.wrow 0 k) j) := by
  show X3 (rW0.idx (ix2 k j)) = X3 (ix2 (Cert.Agg.wrow 0 k) j)
  refine congrArg X3 (funext fun a => Fin.ext ?_)
  match a with
  | ⟨0, _⟩ => show 0 + 1 * k.val = 0 * 128 + k.val; omega
  | ⟨1, _⟩ => show 0 + 1 * j.val = j.val; omega

/-- Row `k` of the second third is row `128 + k` of the weights. -/
theorem ld_third1 (X3 : Vec Ideal S384x128 .f32) (k j : Fin 128) :
    (View.ld X3 rW1) (ix2 k j) = X3 (ix2 (Cert.Agg.wrow 1 k) j) := by
  show X3 (rW1.idx (ix2 k j)) = X3 (ix2 (Cert.Agg.wrow 1 k) j)
  refine congrArg X3 (funext fun a => Fin.ext ?_)
  match a with
  | ⟨0, _⟩ => show 128 + 1 * k.val = 1 * 128 + k.val; omega
  | ⟨1, _⟩ => show 0 + 1 * j.val = j.val; omega

/-- Row `k` of the last third is row `256 + k` of the weights. -/
theorem ld_third2 (X3 : Vec Ideal S384x128 .f32) (k j : Fin 128) :
    (View.ld X3 rW2) (ix2 k j) = X3 (ix2 (Cert.Agg.wrow 2 k) j) := by
  show X3 (rW2.idx (ix2 k j)) = X3 (ix2 (Cert.Agg.wrow 2 k) j)
  refine congrArg X3 (funext fun a => Fin.ext ?_)
  match a with
  | ⟨0, _⟩ => show 256 + 1 * k.val = 2 * 128 + k.val; omega
  | ⟨1, _⟩ => show 0 + 1 * j.val = j.val; omega

/-! ## One matrix product at an index -/

/-- The left operand is read at the output's row … -/
theorem mm_lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- … and the contracted coordinate; -/
theorem mm_lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- the right operand at the contracted coordinate … -/
theorem mm_rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- … and the output's column. -/
theorem mm_rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A matrix product into the zero accumulator, at entry `(r, j)`: row `r` of the left operand against column `j`
    of the right one. -/
theorem matmul_at (L : FVec Ideal S2048x128 .bf16) (R : FVec Ideal S128x128 .bf16) (r : Fin 2048) (j : Fin 128) :
    matmul (F := Ideal) dot_S2048x128_S128x128_S2048x128_1_0_0_1_n_n none L R (constant (F := Ideal) S2048x128 .f32 0x00000000#32) (ix2 r j)
      = ∑ k : Fin 128, L (ix2 r k) * R (ix2 k j) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r j) ((ValueIdx.contrEquiv1 dot_S2048x128_S128x128_S2048x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S2048x128_S128x128_S2048x128_1_0_0_1_n_n.rhsIdx (ix2 r j) ((ValueIdx.contrEquiv1 dot_S2048x128_S128x128_S2048x128_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-- Entry `(r, j)` of the stored block from the four buffers' contents. -/
theorem outBlock_apply (X0 X1 X2 : Vec Ideal S2048x128 .f32) (X3 : Vec Ideal S384x128 .f32) (r : Fin 2048) (j : Fin 128) :
    outBlock (F := Ideal) X0 X1 X2 X3 (ix2 r j)
      = max ((∑ k : Fin 128, X0 (ix2 r k) * X3 (ix2 (Cert.Agg.wrow 0 k) j)
            + ∑ k : Fin 128, X1 (ix2 r k) * X3 (ix2 (Cert.Agg.wrow 1 k) j))
            + ∑ k : Fin 128, X2 (ix2 r k) * X3 (ix2 (Cert.Agg.wrow 2 k) j)) 0 := by
  have hz : (![0, 0] : Fin 2 → Nat) = fun _ => 0 := funext fun a => by fin_cases a <;> rfl
  unfold outBlock
  rw [View.canon_unit_zero hz]
  simp only [View.ld_unit_zero (S := S2048x128) hz]
  unfold k0_pay1
  rw [shapeCast_self X1, shapeCast_self X2]
  rw [maximumf_apply, addf_apply, addf_apply, broadcast_apply]
  refine congrArg₂ max (congrArg₂ (· + ·) (congrArg₂ (· + ·) ?_ ?_) ?_) ?_
  · refine (matmul_at _ _ r j).trans (Finset.sum_congr rfl fun k _ => ?_)
    rw [truncf_apply, truncf_apply, ld_third0]
  · refine (matmul_at _ _ r j).trans (Finset.sum_congr rfl fun k _ => ?_)
    rw [truncf_apply, truncf_apply, ld_third1]
  · refine (matmul_at _ _ r j).trans (Finset.sum_congr rfl fun k _ => ?_)
    rw [truncf_apply, truncf_apply, ld_third2]
  · exact Ideal.ofBits_zero_f32

end Cert.KernelIdeal.Body

end
-- ==== Proof.IdealRun.lean ====
/-
  The idealized kernel's run, read as values: what each grid point leaves in its staging buffers, and what the
  result array holds at the end.

  The grid has 245 points; point `t` works on rows `2048 t ‥ 2048 t + 2047` of the review rows, of the gathered
  user rows and of the gathered item rows, and on the whole weight matrix. The last point's block overhangs the
  arrays (500000 = 244 · 2048 + 288): only its first 288 rows are fetched and written back, and the staging rows
  past them hold words nothing names. That is harmless because entry `(r, j)` of the stored block reads row `r`
  of each row block and no other row: on the rows inside the array the stored block is the dense layer
  `Cert.Agg.dense` of the arrays as the region finds them, whatever fills the rows past the end. The blocks'
  row ranges partition the 500000 rows, so the result array ends holding that function everywhere.
-/
import proofs.«423500_j34488587387574_3_alg».proof.Proof.IdealPayload
import proofs.«423500_j34488587387574_3_alg».proof.Proof.Gen.KernelIdeal.Frame
import proofs.«423500_j34488587387574_3_alg».proof.Proof.AggSpec
import Idealize.ShloMosaic.Lib.Pipeline.Value
import Idealize.ShloMosaic.Lib.ValueIdx

set_option maxRecDepth 16384

noncomputable section

open scoped BigOperators

namespace Cert.KernelIdeal.Dense

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule, decided over the grid -/

/-- Point `t`'s block index is `(t, 0)` for the four row windows and `(0, 0)` for the weights. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The rows a transfer moves at point `t`: all 2048, but 288 at the last point; every lane. -/
theorem xsize_facts : ∀ t : Fin cfg0.N,
    (win0_0.xsize (grid0.coords t) (0 : Fin 2) = if t.val = 244 then 288 else 2048) ∧ win0_0.xsize (grid0.coords t) (1 : Fin 2) = 128
    ∧ (win0_1.xsize (grid0.coords t) (0 : Fin 2) = if t.val = 244 then 288 else 2048) ∧ win0_1.xsize (grid0.coords t) (1 : Fin 2) = 128
    ∧ (win0_2.xsize (grid0.coords t) (0 : Fin 2) = if t.val = 244 then 288 else 2048) ∧ win0_2.xsize (grid0.coords t) (1 : Fin 2) = 128
    ∧ (win0_4.xsize (grid0.coords t) (0 : Fin 2) = if t.val = 244 then 288 else 2048) ∧ win0_4.xsize (grid0.coords t) (1 : Fin 2) = 128 :=
  (by decide +kernel : ∀ t : Fin grid0.N, _)

/-! ## The arrays as the region finds them, and the layer of them -/

abbrev xArr (c : Dev nD) : Vec Ideal S500000x128 .f32 := V m c main_arg0
abbrev uArr (c : Dev nD) : Vec Ideal S500000x128 .f32 := V m c main_v6
abbrev iArr (c : Dev nD) : Vec Ideal S500000x128 .f32 := V m c main_v13
abbrev wArr (c : Dev nD) : Vec Ideal S384x128 .f32 := V m c main_arg5

/-- The dense layer of the review rows, the gathered user rows, the gathered item rows and the weights. -/
def G (c : Dev nD) : Vec Ideal S500000x128 .f32 := Cert.Agg.dense (xArr m c) (uArr m c) (iArr m c) (wArr m c)

/-- A filler for the staging rows past the array's end, which nothing reads. -/
abbrev zpad : S2048x128.Idx → Elt Ideal .f32 := fun _ => Scalar.ofBits (F := Ideal) .f32 0#32

/-! ## The proof data -/

/-- After the body at point `t`: each row window's buffer at its block (on the rows inside the array), the weights'
    at the weights, the result's at block `t` of the layer. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zpad (iblk m c 0 t)
    | ⟨1, _⟩ => win0_1.fill (grid0.coords t) zpad (iblk m c 1 t)
    | ⟨2, _⟩ => win0_2.fill (grid0.coords t) zpad (iblk m c 2 t)
    | ⟨3, _⟩ => iblk m c 3 t
    | ⟨4, _⟩ => win0_4.fill (grid0.coords t) zpad ((win0_4.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) zpad (iblk m c 0 t) := by dsimp only [dats]
theorem after_1 (c : Dev nD) (t : Fin cfg0.N) : (dats m 0 c).after 1 t = win0_1.fill (grid0.coords t) zpad (iblk m c 1 t) := by dsimp only [dats]
theorem after_2 (c : Dev nD) (t : Fin cfg0.N) : (dats m 0 c).after 2 t = win0_2.fill (grid0.coords t) zpad (iblk m c 2 t) := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = win0_4.fill (grid0.coords t) zpad ((win0_4.blk t).view.read (Elt Ideal) (G m c)) := by dsimp only [dats]

/-! ## What the body finds -/

/-- A row window's buffer was just fetched: its block on the rows the fetch moved, anything past them. -/
theorem before_0 (c : Dev nD) (t : Fin cfg0.N) (d) : (dats m 0 c).before 0 t d = win0_0.fill (grid0.coords t) d (iblk m c 0 t) :=
  ((dats m 0 c).before_fetched 0 t (fetch0_0 t) d).trans (by unfold Dat.fetched Dat.blockOf iblk; rw [A_eq])
theorem before_1 (c : Dev nD) (t : Fin cfg0.N) (d) : (dats m 0 c).before 1 t d = win0_1.fill (grid0.coords t) d (iblk m c 1 t) :=
  ((dats m 0 c).before_fetched 1 t (fetch0_1 t) d).trans (by unfold Dat.fetched Dat.blockOf iblk; rw [A_eq])
theorem before_2 (c : Dev nD) (t : Fin cfg0.N) (d) : (dats m 0 c).before 2 t d = win0_2.fill (grid0.coords t) d (iblk m c 2 t) :=
  ((dats m 0 c).before_fetched 2 t (fetch0_2 t) d).trans (by unfold Dat.fetched Dat.blockOf iblk; rw [A_eq])
/-- The weights' buffer holds the weights at every point. -/
theorem before_3 (c : Dev nD) (t : Fin cfg0.N) (d) : (dats m 0 c).before 3 t d = iblk m c 3 t :=
  before0_3_of m (dats m 0 c) (A_eq m c 3) (after_3 m c) t d
/-- The result's buffer was written back at the point before (or never filled): anything. -/
theorem before_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## A fetched block's rows are the array's rows -/

/-- Where a fetch moved an entry, the filled buffer holds the fetched block there. -/
theorem fill_apply_of_lt {G' : Pipeline.Grid} (w : Window sig G') {α : Type} (i : G'.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

theorem rows_0 (c : Dev nD) (t : Fin cfg0.N) (d : S2048x128.Idx → Elt Ideal .f32) (r : Fin 2048) (k : Fin 128)
    (hr : r.val < win0_0.xsize (grid0.coords t) (0 : Fin 2)) (hR : t.val * 2048 + r.val < 500000) :
    win0_0.fill (grid0.coords t) d (iblk m c 0 t) (ix2 r k) = xArr m c (ix2 (⟨t.val * 2048 + r.val, hR⟩ : Fin 500000) k) := by
  obtain ⟨e0, e1, -⟩ := idx_facts t
  obtain ⟨-, s1, -⟩ := xsize_facts t
  rw [fill_apply_of_lt win0_0 (grid0.coords t) d (iblk m c 0 t) (ix2 r k) (fun a => match a with
    | ⟨0, _⟩ => hr
    | ⟨1, _⟩ => by show k.val < win0_0.xsize (grid0.coords t) (1 : Fin 2); rw [s1]; exact k.isLt)]
  show V m c main_arg0 ((win0_0.blk t).view.emb _) = V m c main_arg0 _
  refine congrArg _ (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 128 + 1 * k.val = k.val; rw [e1]; omega

theorem rows_1 (c : Dev nD) (t : Fin cfg0.N) (d : S2048x128.Idx → Elt Ideal .f32) (r : Fin 2048) (k : Fin 128)
    (hr : r.val < win0_1.xsize (grid0.coords t) (0 : Fin 2)) (hR : t.val * 2048 + r.val < 500000) :
    win0_1.fill (grid0.coords t) d (iblk m c 1 t) (ix2 r k) = uArr m c (ix2 (⟨t.val * 2048 + r.val, hR⟩ : Fin 500000) k) := by
  obtain ⟨-, -, e0, e1, -⟩ := idx_facts t
  obtain ⟨-, -, -, s1, -⟩ := xsize_facts t
  rw [fill_apply_of_lt win0_1 (grid0.coords t) d (iblk m c 1 t) (ix2 r k) (fun a => match a with
    | ⟨0, _⟩ => hr
    | ⟨1, _⟩ => by show k.val < win0_1.xsize (grid0.coords t) (1 : Fin 2); rw [s1]; exact k.isLt)]
  show V m c main_v6 ((win0_1.blk t).view.emb _) = V m c main_v6 _
  refine congrArg _ (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 128 + 1 * k.val = k.val; rw [e1]; omega

theorem rows_2 (c : Dev nD) (t : Fin cfg0.N) (d : S2048x128.Idx → Elt Ideal .f32) (r : Fin 2048) (k : Fin 128)
    (hr : r.val < win0_2.xsize (grid0.coords t) (0 : Fin 2)) (hR : t.val * 2048 + r.val < 500000) :
    win0_2.fill (grid0.coords t) d (iblk m c 2 t) (ix2 r k) = iArr m c (ix2 (⟨t.val * 2048 + r.val, hR⟩ : Fin 500000) k) := by
  obtain ⟨-, -, -, -, e0, e1, -⟩ := idx_facts t
  obtain ⟨-, -, -, -, -, s1, -⟩ := xsize_facts t
  rw [fill_apply_of_lt win0_2 (grid0.coords t) d (iblk m c 2 t) (ix2 r k) (fun a => match a with
    | ⟨0, _⟩ => hr
    | ⟨1, _⟩ => by show k.val < win0_2.xsize (grid0.coords t) (1 : Fin 2); rw [s1]; exact k.isLt)]
  show V m c main_v13 ((win0_2.blk t).view.emb _) = V m c main_v13 _
  refine congrArg _ (funext fun a => Fin.ext ?_)
  match a with
  | ⟨0, _⟩ => show win0_2.index t (0 : Fin 2) * 2048 + 1 * r.val = t.val * 2048 + r.val; rw [e0]; omega
  | ⟨1, _⟩ => show win0_2.index t (1 : Fin 2) * 128 + 1 * k.val = k.val; rw [e1]; omega

/-- The weights' block is the whole weight array. -/
theorem wts (c : Dev nD) (t : Fin cfg0.N) (kk : Fin 384) (J : Fin 128) : iblk m c 3 t (ix2 kk J) = wArr m c (ix2 kk J) := by
  obtain ⟨-, -, -, -, -, -, e0, e1, -⟩ := idx_facts t
  show V m c main_arg5 ((win0_3.blk t).view.emb (ix2 kk J)) = V m c main_arg5 (ix2 kk J)
  refine congrArg _ (funext fun a => Fin.ext ?_)
  match a with
  | ⟨0, _⟩ => show win0_3.index t (0 : Fin 2) * 384 + 1 * kk.val = kk.val; rw [e0]; omega
  | ⟨1, _⟩ => show win0_3.index t (1 : Fin 2) * 128 + 1 * J.val = J.val; rw [e1]; omega

/-! ## The stored block on the rows inside the array -/

/-- On the rows a write-back moves, the block the body stores is block `t` of the layer, whatever fills the row
    buffers past the array's end: entry `(r, j)` reads row `r` of each row block, which the fetch moved. -/
theorem cut_outBlock (c : Dev nD) (t : Fin cfg0.N) (d0 d1 d2 : S2048x128.Idx → Elt Ideal .f32) :
    win0_4.cut (grid0.coords t)
      (outBlock (F := Ideal) (win0_0.fill (grid0.coords t) d0 (iblk m c 0 t)) (win0_1.fill (grid0.coords t) d1 (iblk m c 1 t))
        (win0_2.fill (grid0.coords t) d2 (iblk m c 2 t)) (iblk m c 3 t))
      = (win0_4.blk t).view.read (Elt Ideal) (G m c) := by
  funext j
  obtain ⟨e00, e01, e10, e11, e20, e21, e30, e31, e40, e41⟩ := idx_facts t
  obtain ⟨s00, s01, s10, s11, s20, s21, s40, s41⟩ := xsize_facts t
  have ht : t.val < 245 := t.isLt
  have hj0 : (j 0).val < win0_4.xsize (grid0.coords t) (0 : Fin 2) := (j 0).isLt
  have hj1 : (j 1).val < win0_4.xsize (grid0.coords t) (1 : Fin 2) := (j 1).isLt
  have hr : (j 0).val < 2048 := by rw [s40] at hj0; split at hj0 <;> omega
  have hk : (j 1).val < 128 := by rw [s41] at hj1; exact hj1
  have hR : t.val * 2048 + (j 0).val < 500000 := by rw [s40] at hj0; split at hj0 <;> omega
  have hr0 : (j 0).val < win0_0.xsize (grid0.coords t) (0 : Fin 2) := by rw [s00]; rw [s40] at hj0; exact hj0
  have hr1 : (j 0).val < win0_1.xsize (grid0.coords t) (0 : Fin 2) := by rw [s10]; rw [s40] at hj0; exact hj0
  have hr2 : (j 0).val < win0_2.xsize (grid0.coords t) (0 : Fin 2) := by rw [s20]; rw [s40] at hj0; exact hj0
  have hx : win0_4.xinj (grid0.coords t) j = ix2 (⟨(j 0).val, hr⟩ : Fin 2048) (⟨(j 1).val, hk⟩ : Fin 128) :=
    funext fun a => match a with | ⟨0, _⟩ => rfl | ⟨1, _⟩ => rfl
  have hi : (win0_4.blk t).view.emb j = ix2 (⟨t.val * 2048 + (j 0).val, hR⟩ : Fin 500000) (⟨(j 1).val, hk⟩ : Fin 128) :=
    funext fun a => Fin.ext (by
      match a with
      | ⟨0, _⟩ => show win0_4.index t (0 : Fin 2) * 2048 + 1 * (j 0).val = t.val * 2048 + (j 0).val; rw [e40]; omega
      | ⟨1, _⟩ => show win0_4.index t (1 : Fin 2) * 128 + 1 * (j 1).val = (j 1).val; rw [e41]; omega)
  show outBlock (F := Ideal) _ _ _ _ (win0_4.xinj (grid0.coords t) j) = G m c ((win0_4.blk t).view.emb j)
  rw [hx, hi, outBlock_apply]
  rw [show G m c (ix2 (⟨t.val * 2048 + (j 0).val, hR⟩ : Fin 500000) (⟨(j 1).val, hk⟩ : Fin 128))
      = Cert.Agg.denseAt (xArr m c) (uArr m c) (iArr m c) (wArr m c) ⟨t.val * 2048 + (j 0).val, hR⟩ ⟨(j 1).val, hk⟩ from rfl]
  unfold Cert.Agg.denseAt Cert.Agg.third
  simp only [rows_0 m c t d0 ⟨(j 0).val, hr⟩ _ hr0 hR, rows_1 m c t d1 ⟨(j 0).val, hr⟩ _ hr1 hR,
    rows_2 m c t d2 ⟨(j 0).val, hr⟩ _ hr2 hR, wts m c t]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the row windows' and the result's buffers stated on the rows their transfers move, the
    weights' exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t)))))

/-- The body at any point: the row buffers hold their fetched blocks, the weights' buffer the weights, so the
    body's triple applies; what it leaves agrees with the proof data on the moved rows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel (F := Ideal) c Set.univ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show (cfg0.win 0).cut (cfg0.grid.coords t) (win0_0.fill (grid0.coords t) zpad (iblk m c 0 t)) = iblk m c 0 t from win0_0.cut_fill _ _ _]
    iexact H0
  isplitl [H1]
  · iexists d1
    rw [show (cfg0.win 1).cut (cfg0.grid.coords t) (win0_1.fill (grid0.coords t) zpad (iblk m c 1 t)) = iblk m c 1 t from win0_1.cut_fill _ _ _]
    iexact H1
  isplitl [H2]
  · iexists d2
    rw [show (cfg0.win 2).cut (cfg0.grid.coords t) (win0_2.fill (grid0.coords t) zpad (iblk m c 2 t)) = iblk m c 2 t from win0_2.cut_fill _ _ _]
    iexact H2
  isplitl [H3]; · iexact H3
  iexists (outBlock (F := Ideal) (win0_0.fill (grid0.coords t) d0 (iblk m c 0 t)) (win0_1.fill (grid0.coords t) d1 (iblk m c 1 t))
    (win0_2.fill (grid0.coords t) d2 (iblk m c 2 t)) (iblk m c 3 t))
  rw [show (cfg0.win 4).cut (cfg0.grid.coords t) (win0_4.fill (grid0.coords t) zpad ((win0_4.blk t).view.read (Elt Ideal) (G m c)))
      = (win0_4.blk t).view.read (Elt Ideal) (G m c) from win0_4.cut_fill _ _ _,
    ← cut_outBlock m c t d0 d1 d2,
    show (cfg0.win 4).fill (cfg0.grid.coords t) _ (win0_4.cut (grid0.coords t) _) = _ from win0_4.fill_cut _ _]
  iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates with every array of the pipeline at what the proof data
    compute and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## The result array -/

/-- What point `t` writes back is block `t` of the layer. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after_4]; exact win0_4.cut_fill _ _ _

/-- An index of the result array is in point `t`'s block iff each coordinate is in the block's range, cut at the
    array's end. -/
theorem mem_blk (t : Fin cfg0.N) (i : S500000x128.Idx) :
    i ∈ ((cfg0.win 4).blk t).view.set ↔ ∀ a : Fin 2, win0_4.index t a * S2048x128.size a ≤ (i a).val ∧ (i a).val < win0_4.index t a * S2048x128.size a + win0_4.xsize (grid0.coords t) a := by
  show i ∈ ((View.whole main_v14).slice (win0_4.rect t)).set ↔ _
  rw [View.set_slice_whole, Rect.mem_set_unit]
  exact Iff.rfl

/-- Row `r` is in the block of point `r / 2048`. -/
theorem cover (i : S500000x128.Idx) : ∃ t : Fin cfg0.N, (cfg0.win 4).flush t = true ∧ i ∈ ((cfg0.win 4).blk t).view.set := by
  have hi0 : (i 0).val < 500000 := (i 0).isLt
  have hi1 : (i 1).val < 128 := (i 1).isLt
  have hN : (i 0).val / 2048 < cfg0.N := by show _ < grid0.N; rw [N_0]; omega
  obtain ⟨-, -, -, -, -, -, -, -, e40, e41⟩ := idx_facts ⟨(i 0).val / 2048, hN⟩
  obtain ⟨-, -, -, -, -, -, s40, s41⟩ := xsize_facts ⟨(i 0).val / 2048, hN⟩
  refine ⟨⟨(i 0).val / 2048, hN⟩, flush0_4 _, ?_⟩
  rw [mem_blk]
  intro a
  match a with
  | ⟨0, _⟩ =>
    show win0_4.index ⟨(i 0).val / 2048, hN⟩ (0 : Fin 2) * 2048 ≤ (i 0).val ∧ (i 0).val < win0_4.index ⟨(i 0).val / 2048, hN⟩ (0 : Fin 2) * 2048 + win0_4.xsize (grid0.coords ⟨(i 0).val / 2048, hN⟩) (0 : Fin 2)
    rw [e40, s40]
    show (i 0).val / 2048 * 2048 ≤ (i 0).val ∧ (i 0).val < (i 0).val / 2048 * 2048 + (if (i 0).val / 2048 = 244 then 288 else 2048)
    split <;> omega
  | ⟨1, _⟩ =>
    show win0_4.index ⟨(i 0).val / 2048, hN⟩ (1 : Fin 2) * 128 ≤ (i 1).val ∧ (i 1).val < win0_4.index ⟨(i 0).val / 2048, hN⟩ (1 : Fin 2) * 128 + win0_4.xsize (grid0.coords ⟨(i 0).val / 2048, hN⟩) (1 : Fin 2)
    rw [e41, s41]; omega

/-- The result array ends holding the layer. -/
theorem final (c : Dev nD) : (dats m 0 c).arrAt 4 cfg0.N = G m c :=
  (dats m 0 c).arrAt_eq_of_cover 4 (G m c) (fun t _ => flushed_eq m c t) cover

/-- The run, read: the result array at the layer of the arrays as the region finds them, the arguments unchanged. -/
theorem run : θ_run defs (onTc (τ := τ) (main (F := Ideal))) ⟨m, fun _ => 0, ρ⟩ (fun r => ∀ c : Dev nD,
      r.2.mem ((c.tc : Thread nD τ).loc main_v14) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c)))⟩)
    (run_main m ρ)

/-- The frame: the run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Dense

end
-- ==== Proof.IdealHost.lean ====
/-
  The two gathered row arrays the kernel's region is launched on, as terms of the arguments.

  Before the region the program wraps negative indices (an index `i < 0` reads row `i + N`), gathers the user
  rows at the wrapped user indices and the item rows at the wrapped item indices; nothing else is computed before
  the region. So the layer the result array ends holding is the layer of the review embeddings, those two gathers
  and the weights, all as launched.
-/
import proofs.«423500_j34488587387574_3_alg».proof.Proof.IdealRun
import Idealize.ShloMosaic.Lib.StableHlo.Run

set_option maxRecDepth 16384

noncomputable section

namespace Cert.KernelIdeal.Dense

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- An index array with its negative entries wrapped by `n`. -/
abbrev wrapped (n : BitVec 32) (idx : Vec Ideal S500000 .i32) : Vec Ideal S500000x1 .i32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 n))) idx)

/-- The user rows of the reviews: the user table gathered at the wrapped user indices. -/
abbrev userRows (c : Dev nD) : Vec Ideal S500000x128 .f32 :=
  Host.gather gather_S200000x128_S500000x1_S500000x128_1_0_n_n_0_1_1128 (m ((c : Thread nD τ).loc main_arg2))
    (wrapped 200000#32 (m ((c : Thread nD τ).loc main_arg3)))

/-- The item rows of the reviews: the item table gathered at the wrapped item indices. -/
abbrev itemRows (c : Dev nD) : Vec Ideal S500000x128 .f32 :=
  Host.gather gather_S100000x128_S500000x1_S500000x128_1_0_n_n_0_1_1128 (m ((c : Thread nD τ).loc main_arg1))
    (wrapped 100000#32 (m ((c : Thread nD τ).loc main_arg4)))

theorem uArr_eq (c : Dev nD) : uArr m c = userRows m c := by
  show (V m c main_v6 : S500000x128.Idx → Elt Ideal .f32) = _
  dsimp only [V, hostOps0]; after_results

theorem iArr_eq (c : Dev nD) : iArr m c = itemRows m c := by
  show (V m c main_v13 : S500000x128.Idx → Elt Ideal .f32) = _
  dsimp only [V, hostOps0]; after_results

/-- The layer the result array ends holding, over the arguments as launched. -/
theorem G_eq (c : Dev nD) :
    G m c = Cert.Agg.dense (m ((c : Thread nD τ).loc main_arg0)) (userRows m c) (itemRows m c) (m ((c : Thread nD τ).loc main_arg5)) := by
  unfold G
  rw [uArr_eq, iArr_eq, show xArr m c = m ((c : Thread nD τ).loc main_arg0) from V_main_arg0 m c,
    show wArr m c = m ((c : Thread nD τ).loc main_arg5) from V_main_arg5 m c]

end Cert.KernelIdeal.Dense

end
-- ==== Proof.RefDense.lean ====
/-
  The reference's result, stage by stage, is the dense aggregation layer `Cert.Agg.dense` of the review
  embeddings, the gathered user rows, the gathered item rows and the weights: the reference concatenates the three
  row blocks along the feature axis, contracts the 384 features against the weights and clamps at zero; column
  `q * 128 + k` of the concatenation is column `k` of the `q`-th block, so the contraction is the sum of the
  three thirds (`Cert.Agg.sum_thirds`).
-/
import proofs.«423500_j34488587387574_3_alg».proof.Proof.Gen.ReferenceIdeal.Run
import proofs.«423500_j34488587387574_3_alg».proof.Proof.Gen.ReferenceIdeal.Read
import proofs.«423500_j34488587387574_3_alg».proof.Proof.AggSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Column `k` of the concatenation of three row blocks of width 128, for `k` in the first stretch of 128, is column
    `k` of the first block: no block lies before it. -/
theorem cat0 {α : Type} (x u it : S500000x128.Idx → α) (r : Fin 500000) (k : Fin 128) :
    concatenate S500000x384 1 [⟨S500000x128, x⟩, ⟨S500000x128, u⟩, ⟨S500000x128, it⟩]
      concatenates_S500000x128_S500000x128_S500000x128_S500000x384_d1 (ix2 r (Cert.Agg.wrow 0 k)) = x (ix2 r k) := by
  refine concatenate_apply_piece (t := S500000x384) 1 [⟨S500000x128, x⟩, ⟨S500000x128, u⟩, ⟨S500000x128, it⟩] _ _ 0 (by simp)
    S500000x128 x rfl rfl 0 rfl (ix2 r k) ?_ ?_
  · intro b hb
    match b with
    | ⟨0, _⟩ => rfl
    | ⟨1, _⟩ => exact absurd rfl hb
  · show 0 + k.val = 0 * 128 + k.val
    omega

/-- Column `128 + k` of the concatenation is column `k` of the second block: one block of width 128 lies before it. -/
theorem cat1 {α : Type} (x u it : S500000x128.Idx → α) (r : Fin 500000) (k : Fin 128) :
    concatenate S500000x384 1 [⟨S500000x128, x⟩, ⟨S500000x128, u⟩, ⟨S500000x128, it⟩]
      concatenates_S500000x128_S500000x128_S500000x128_S500000x384_d1 (ix2 r (Cert.Agg.wrow 1 k)) = u (ix2 r k) := by
  refine concatenate_apply_piece (t := S500000x384) 1 [⟨S500000x128, x⟩, ⟨S500000x128, u⟩, ⟨S500000x128, it⟩] _ _ 1 (by simp)
    S500000x128 u rfl rfl 128 rfl (ix2 r k) ?_ ?_
  · intro b hb
    match b with
    | ⟨0, _⟩ => rfl
    | ⟨1, _⟩ => exact absurd rfl hb
  · show 128 + k.val = 1 * 128 + k.val
    omega

/-- Column `256 + k` of the concatenation is column `k` of the third block: two blocks of width 128 lie before it. -/
theorem cat2 {α : Type} (x u it : S500000x128.Idx → α) (r : Fin 500000) (k : Fin 128) :
    concatenate S500000x384 1 [⟨S500000x128, x⟩, ⟨S500000x128, u⟩, ⟨S500000x128, it⟩]
      concatenates_S500000x128_S500000x128_S500000x128_S500000x384_d1 (ix2 r (Cert.Agg.wrow 2 k)) = it (ix2 r k) := by
  refine concatenate_apply_piece (t := S500000x384) 1 [⟨S500000x128, x⟩, ⟨S500000x128, u⟩, ⟨S500000x128, it⟩] _ _ 2 (by simp)
    S500000x128 it rfl rfl 256 rfl (ix2 r k) ?_ ?_
  · intro b hb
    match b with
    | ⟨0, _⟩ => rfl
    | ⟨1, _⟩ => exact absurd rfl hb
  · show 256 + k.val = 2 * 128 + k.val
    omega

/-- The reference's last stage is the dense layer of its argument arrays and its two gathers. -/
theorem val_main_v16_dense (x0 : (⟨S500000x128, .f32⟩ : BufTy).Contents (Elt Ideal)) (x1 : (⟨S100000x128, .f32⟩ : BufTy).Contents (Elt Ideal))
    (x2 : (⟨S200000x128, .f32⟩ : BufTy).Contents (Elt Ideal)) (x3 x4 : (⟨S500000, .i32⟩ : BufTy).Contents (Elt Ideal))
    (x5 : (⟨S384x128, .f32⟩ : BufTy).Contents (Elt Ideal)) :
    val_main_v16 (F := Ideal) x0 x1 x2 x3 x4 x5
      = Cert.Agg.dense x0 (val_main_v13 (F := Ideal) x2 x3) (val_main_v6 (F := Ideal) x1 x4) x5 := by
  -- entry (r, j): the clamp at zero of the contraction of row r of the concatenation against column j of the weights
  funext i
  obtain ⟨r, j, rfl⟩ : ∃ (r : Fin 500000) (j : Fin 128), i = ix2 r j := ⟨i 0, i 1, eq_ix2 i⟩
  rw [Cert.Agg.dense_apply, val_main_v16_apply, val_main_call0_v0_apply, val_main_call0_cst_apply, val_main_v15_apply]
  unfold val_main_v14
  -- the two gathered blocks are carried as whole arrays: nothing below depends on how they were gathered
  generalize val_main_v13 (F := Ideal) x2 x3 = u
  generalize val_main_v6 (F := Ideal) x1 x4 = it
  -- the contraction's k-th term reads the concatenation at (r, k) and the weights at (k, j)
  have hl : ∀ k : Fin 384, lidx_main_v15 (ix2 r j) k = ix2 r k := fun k => funext fun a => by
    match a with
    | ⟨0, _⟩ => rfl
    | ⟨1, _⟩ => rfl
  have hr : ∀ k : Fin 384, ridx_main_v15 (ix2 r j) k = ix2 k j := fun k => funext fun a => by
    match a with
    | ⟨0, _⟩ => rfl
    | ⟨1, _⟩ => rfl
  simp only [hl, hr]
  -- the sum over 384 features is the sum of its three stretches of 128, and on each stretch the concatenation is one block
  rw [Cert.Agg.sum_thirds]
  simp only [cat0, cat1, cat2]
  -- the larger of the contraction and the constant zero
  show max _ (Ideal.ofBits .f32 0x00000000#32) = _
  rw [Ideal.ofBits_zero_f32]
  rfl

end Cert.ReferenceIdeal.RefValue

end
-- ==== Proof.lean ====
/-
  The streaming dense aggregation layer against its reference, over the extended reals.

  Both programs gather each review's user row and item row with the same host operations, then compute
  `max (concat [review, user, item] · W, 0)`. The reference forms the concatenated row of 384 features and
  contracts it against the weights in one product; the kernel walks the 500000 rows in 245 blocks of 2048 (the last
  one cut to 288 rows at the arrays' end) and, per block, multiplies the three row blocks by the three thirds of
  the weights and adds the products. A sum over 384 consecutive indices is the sum of its three stretches of 128
  (`Cert.Agg.sum_thirds`), a regrouping of a finite sum that needs no finiteness of the summands; a change of float
  format is the identity and a product into a zero accumulator is the plain sum, so entry by entry the two results
  are one extended real, `Cert.Agg.dense` of the arguments and the two gathers.

  The frames: the word-level kernel's with the result's staging buffer left unnamed, the idealized kernel's as its
  value run with the result dropped, the reference's as its run with the result dropped. The idealization
  rewrote nothing, so `preserves` has nothing to state.
-/
import proofs.«423500_j34488587387574_3_alg».proof.Defs
import proofs.«423500_j34488587387574_3_alg».proof.Proof.Gen.Kernel
import proofs.«423500_j34488587387574_3_alg».proof.Proof.Gen.KernelIdeal
import proofs.«423500_j34488587387574_3_alg».proof.Proof.Gen.ReferenceIdeal
import proofs.«423500_j34488587387574_3_alg».proof.Proof.Gen.Pre_finite_inputs
import proofs.«423500_j34488587387574_3_alg».proof.Proof.Gen.ReferenceIdeal.Run
import proofs.«423500_j34488587387574_3_alg».proof.Proof.Gen.ReferenceIdeal.Read
import proofs.«423500_j34488587387574_3_alg».proof.Proof.KernelRun
import proofs.«423500_j34488587387574_3_alg».proof.Proof.IdealHost
import proofs.«423500_j34488587387574_3_alg».proof.Proof.RefDense
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_k : Cert.frame_Kernel (hKernel := Cert.Kernel.Gen.facts) (hPre_finite_inputs := Cert.Pre_finite_inputs.Gen.facts) :=
  fun m ρ _ => Cert.Kernel.Dense.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Dense.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's gathers are the kernel's: the same host operations on the same arguments, so the reference's
    layer over arguments that agree is the kernel's. -/
theorem ref_layer (m : (ℓ : Loc Cert.KernelIdeal.nD Cert.KernelIdeal.τ Cert.KernelIdeal.sig) → Buf (Elt Ideal) ℓ) (c : Dev Cert.KernelIdeal.nD) :
    Cert.Agg.dense (m ((c.tc : Thread Cert.KernelIdeal.nD Cert.KernelIdeal.τ).loc Cert.KernelIdeal.main_arg0))
        (Cert.ReferenceIdeal.Read.val_main_v13 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (Cert.ReferenceIdeal.Read.val_main_v6 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg5))
      = Cert.KernelIdeal.Dense.G m c := by
  rw [Cert.KernelIdeal.Dense.G_eq]
  rfl

/-- From memories agreeing on the arguments both idealized programs end with the same result array: the dense
    layer of the arguments and the two gathers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Dense.G m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.val_main_v16_dense,
    (hagree c).1, (hagree c).2.1, (hagree c).2.2.1, (hagree c).2.2.2.1, (hagree c).2.2.2.2.1, (hagree c).2.2.2.2.2]
  exact ref_layer m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
